-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S40000x128 .f32) (main_arg1 : IVec S2x640000 32) (main_arg2 : FVec F S640000x128 .f32) (main_arg3 : FVec F S128x128 .f32) (main_arg4 : FVec F S128 .f32) (main_arg5 : FVec F S128x128 .f32) (main_arg6 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S40000x128 : Shape := ⟨2, ![40000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S8000x128 : Shape := ⟨2, ![8000, 128]⟩
abbrev S1x128 : Shape := ⟨2, ![1, 128]⟩
abbrev S5000x128 : Shape := ⟨2, ![5000, 128]⟩

abbrev nBuf : Space → Nat
  | .hbm => 43
  | .vmem => 28
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S1x128, .f32⟩
  | .hbm, ⟨26, _⟩ => ⟨S40000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x128, .f32⟩
  | .hbm, ⟨37, _⟩ => ⟨S_, .f32⟩
  | .hbm, ⟨38, _⟩ => ⟨S40000x128, .f32⟩
  | .hbm, ⟨39, _⟩ => ⟨S640000x1, .i32⟩
  | .hbm, ⟨40, _⟩ => ⟨S40000x128, .f32⟩
  | .hbm, ⟨41, _⟩ => ⟨S1x128, .f32⟩
  | .hbm, ⟨42, _⟩ => ⟨S40000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S40000x128 : S_.BroadcastsInDim S40000x128 (![] : Fin 0 → Fin S40000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S640000x128.size a
  hwx0_2 : ∀ i : grid0.Coords, EltTy.bits .f32 = 32 ∨ (Rect.block (s := S640000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S40000x128.size a
  hwx1_4 : ∀ i : grid1.Coords, EltTy.bits .f32 = 32 ∨ (Rect.block (s := S40000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S640000x128.size a
  hwx2_1 : ∀ i : grid2.Coords, EltTy.bits .f32 = 32 ∨ (Rect.block (s := S640000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S640000x128.size a
  hwx2_2 : ∀ i : grid2.Coords, EltTy.bits .f32 = 32 ∨ (Rect.block (s := S640000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S40000x128.size a
  hwx3_1 : ∀ i : grid3.Coords, EltTy.bits .f32 = 32 ∨ (Rect.block (s := S40000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S40000x128.size a
  hwx3_4 : ∀ i : grid3.Coords, EltTy.bits .f32 = 32 ∨ (Rect.block (s := S40000x128) S5000x128.size (cc3_transform_4 i) (hinb3_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v16) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S40000x128, .f32⟩
  | .hbm, ⟨29, _⟩ => ⟨S40000x128, .f32⟩
  | .hbm, ⟨30, _⟩ => ⟨S1x128, .f32⟩
  | .hbm, ⟨31, _⟩ => ⟨S40000x128, .f32⟩
  | .hbm, ⟨32, _⟩ => ⟨S40000x128, .f32⟩
  | .hbm, ⟨33, _⟩ => ⟨S_, .f32⟩
  | .hbm, ⟨34, _⟩ => ⟨S40000x128, .f32⟩
  | .hbm, ⟨35, _⟩ => ⟨S40000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S640000x128, .f32⟩
  | .hbm, ⟨48, _⟩ => ⟨S640000x128, .f32⟩
  | .hbm, ⟨49, _⟩ => ⟨S_, .f32⟩
  | .hbm, ⟨50, _⟩ => ⟨S40000x128, .f32⟩
  | .hbm, ⟨51, _⟩ => ⟨S640000x1, .i32⟩
  | .hbm, ⟨52, _⟩ => ⟨S40000x128, .f32⟩
  | .hbm, ⟨53, _⟩ => ⟨S40000x128, .f32⟩
  | .hbm, ⟨54, _⟩ => ⟨S40000x128, .f32⟩
  | .hbm, ⟨55, _⟩ => ⟨S1x128, .f32⟩
  | .hbm, ⟨56, _⟩ => ⟨S40000x128, .f32⟩
  | .hbm, ⟨57, _⟩ => ⟨S40000x128, .f32⟩
  | .hbm, ⟨58, _⟩ => ⟨S_, .f32⟩
  | .hbm, ⟨59, _⟩ => ⟨S40000x128, .f32⟩
  | .hbm, ⟨60, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_cst : Ref sig .tc := ⟨.hbm, 46, rfl⟩
abbrev main_call2_v0 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_cst : Ref sig .tc := ⟨.hbm, 58, rfl⟩
abbrev main_call3_v0 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Spec.lean ====
/-
  The mathematics of one graph-convolution layer, index by index, over the extended reals.

  A layer takes node features `x` (40000 × 128), edge features `e` (640000 × 128), a weight matrix `W` (128 × 128) and
  a bias row `b` (1 × 128), a map `gath` from node arrays to edge arrays (the row of the source node of each edge)
  and a map `scat` from edge arrays to node arrays (the sum of the edge rows arriving at each node):

    message    msg g e        at (j, c) :  max (g (j, c) + e (j, c)) 0
    update     upd x a W b    at (r, c) :  max ((∑ k, (x (r, k) + a (r, k)) · W (k, c)) + b (0, c)) 0
    layer      upd x (scat (msg (gath x) e)) W b

  Both programs compute two such layers; they differ only in how the arrays are cut into blocks, which the sums
  and the pointwise operations do not see.
-/
import Idealize.ShloMosaic.PureOps.Ideal
import Idealize.ShloMosaic.Lib.ValueIdx

noncomputable section

namespace Cert.Gine

open Idealize.ShloMosaic Idealize.ShloMosaic.ValueIdx
open scoped BigOperators

/-- Edge arrays: one row of 128 features per edge. -/
abbrev SE : Shape := ⟨2, ![640000, 128]⟩
/-- Node arrays: one row of 128 features per node. -/
abbrev SN : Shape := ⟨2, ![40000, 128]⟩
/-- A weight matrix. -/
abbrev SW : Shape := ⟨2, ![128, 128]⟩
/-- A bias, as one row. -/
abbrev SB : Shape := ⟨2, ![1, 128]⟩

/-- The message on an edge: the gathered source row plus the edge's own features, clamped below at zero. -/
def msg (g e : FVec Ideal SE .f32) : FVec Ideal SE .f32 := fun i => max (g i + e i) 0

/-- The node update: row `r` of `x + a` times the weight matrix, plus the bias, clamped below at zero. -/
def upd (x a : FVec Ideal SN .f32) (W : FVec Ideal SW .f32) (b : FVec Ideal SB .f32) : FVec Ideal SN .f32 :=
  fun i => max ((∑ k : Fin 128, (x (ix2 (i 0) k) + a (ix2 (i 0) k)) * W (ix2 k (i 1))) + b (ix2 0 (i 1))) 0

/-- One layer: gather, message, scatter-sum, update. -/
def layer (gath : FVec Ideal SN .f32 → FVec Ideal SE .f32) (scat : FVec Ideal SE .f32 → FVec Ideal SN .f32)
    (x : FVec Ideal SN .f32) (e : FVec Ideal SE .f32) (W : FVec Ideal SW .f32) (b : FVec Ideal SB .f32) : FVec Ideal SN .f32 :=
  upd x (scat (msg (gath x) e)) W b

end Cert.Gine

end
-- ==== Proof.MsgRegion0.lean ====
/- The first message region: after its 80 grid points the output array holds the message of the two input arrays, index by index. -/
import proofs.«164732_j1073741824404_1_alg».proof.Proof.Gen.KernelIdeal.Frame
import proofs.«164732_j1073741824404_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

-- The TensorCore's buffer contents when the region is entered.
variable (V : (c : Dev nD) → (b : Ref sig .tc) → Buf (Elt Ideal) ((c : Thread nD τ).loc b))

/-- The body's one store starts at the origin of its buffer. -/
theorem origin0 : (![0, 0] : Fin 2 → Nat) = fun _ => 0 :=
  funext fun a => match a with | ⟨0, _⟩ => rfl | ⟨1, _⟩ => rfl

/-- What the body computes from its two loaded blocks, element by element: the sum clamped below at zero. -/
theorem payload0 (x0 x1 : Vec Ideal S8000x128 .f32) (j : S8000x128.Idx) :
    k0_pay1 x0 x1 j = max (x0 j + x1 j) 0 := by
  show max (shapeCast S8000x128 x0 shapeCasts_S8000x128_S8000x128 j + x1 j) (Ideal.ofBits .f32 0x00000000#32) = _
  rw [shapeCast_self, Ideal.ofBits_zero_f32]

/-- The message at an index, from its two summands read at that index. -/
theorem msg_at0 (g e : FVec Ideal S640000x128 .f32) (i0 i1 i : S640000x128.Idx) (h0 : i0 = i) (h1 : i1 = i) :
    max (g i0 + e i1) 0 = Cert.Gine.msg g e i := by
  subst h0 h1; rfl

/-- Grid point t of the region sits at block row t of each of the three arrays, in the one block column. -/
theorem rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point t writes back is block t of the message of the two input arrays: the three windows have the same
    block at every point, so the inputs are read exactly where the output is written. -/
theorem written0 (c : Dev nD) (t : Fin cfg0.N) :
    (dat0 (F := Ideal) V c).flushed 2 t
      = ((cfg0.win 2).blk t).view.read (Elt Ideal) (Cert.Gine.msg (V c main_v10) (V c main_arg2)) := by
  show (cfg0.win 2).cut (grid0.coords t) ((dat0 (F := Ideal) V c).after 2 t) = _
  rw [after0_2]
  unfold out0_2
  rw [View.canon_unit_zero origin0]
  simp only [View.ld_unit_zero (S := S8000x128) origin0]
  obtain ⟨e00, e01, e10, e11, e20, e21⟩ := rows0 t
  funext j
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 128 + 1 * (j 1).val = win0_2.index t (1 : Fin 2) * 128 + 1 * (j 1).val; omega
  refine (payload0 _ _ j).trans ?_
  exact msg_at0 (V c main_v10) (V c main_arg2) _ _ _ h0 h1

/-- An index of the output array is in point t's block iff each coordinate is in the block's range on its axis. -/
theorem mem_block0 (t : Fin cfg0.N) (i : S640000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v11).slice (win0_2.rect t)).set ↔ _
  rw [View.set_slice_whole, Rect.mem_set_unit]
  exact Iff.rfl

/-- Every index of the output array is in some point's block: row r is in block row r / 8000, and the one block column is
    the whole second axis (80 blocks of 8000 rows are the 640000 rows). -/
theorem covered0 (i : S640000x128.Idx) :
    ∃ t : Fin cfg0.N, (cfg0.win 2).flush t = true ∧ i ∈ ((cfg0.win 2).blk t).view.set := by
  have hi0 : (i 0).val < 640000 := (i 0).isLt
  have hi1 : (i 1).val < 128 := (i 1).isLt
  have hN : cfg0.N = 80 := N_0
  let t : Fin cfg0.N := ⟨(i 0).val / 8000, by rw [hN]; omega⟩
  obtain ⟨-, -, -, -, e20, e21⟩ := rows0 t
  have ht : t.val = (i 0).val / 8000 := rfl
  refine ⟨t, flush0_2 t, ?_⟩
  rw [mem_block0]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-- After the region's grid the output array holds the message of the two input arrays, index by index. -/
theorem msg0 (c : Dev nD) :
    (dat0 (F := Ideal) V c).arrAt 2 cfg0.N = Cert.Gine.msg (V c main_v10) (V c main_arg2) :=
  (dat0 (F := Ideal) V c).arrAt_eq_of_cover 2 (Cert.Gine.msg (V c main_v10) (V c main_arg2))
    (fun t _ => written0 V c t) covered0

end Cert.KernelIdeal.RegionValue

end
-- ==== Proof.MsgRegion2.lean ====
/- The second message region: after its 80 grid points the output array holds the message of the two input arrays, index by index. -/
import proofs.«164732_j1073741824404_1_alg».proof.Proof.Gen.KernelIdeal.Frame
import proofs.«164732_j1073741824404_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

-- The TensorCore's buffer contents when the region is entered.
variable (V : (c : Dev nD) → (b : Ref sig .tc) → Buf (Elt Ideal) ((c : Thread nD τ).loc b))

/-- The body's one store starts at the origin of its buffer. -/
theorem origin2 : (![0, 0] : Fin 2 → Nat) = fun _ => 0 :=
  funext fun a => match a with | ⟨0, _⟩ => rfl | ⟨1, _⟩ => rfl

/-- What the body computes from its two loaded blocks, element by element: the sum clamped below at zero. -/
theorem payload2 (x0 x1 : Vec Ideal S8000x128 .f32) (j : S8000x128.Idx) :
    k2_pay1 x0 x1 j = max (x0 j + x1 j) 0 := by
  show max (shapeCast S8000x128 x0 shapeCasts_S8000x128_S8000x128 j + x1 j) (Ideal.ofBits .f32 0x00000000#32) = _
  rw [shapeCast_self, Ideal.ofBits_zero_f32]

/-- The message at an index, from its two summands read at that index. -/
theorem msg_at2 (g e : FVec Ideal S640000x128 .f32) (i0 i1 i : S640000x128.Idx) (h0 : i0 = i) (h1 : i1 = i) :
    max (g i0 + e i1) 0 = Cert.Gine.msg g e i := by
  subst h0 h1; rfl

/-- Grid point t of the region sits at block row t of each of the three arrays, in the one block column. -/
theorem rows2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What grid point t writes back is block t of the message of the two input arrays: the three windows have the same
    block at every point, so the inputs are read exactly where the output is written. -/
theorem written2 (c : Dev nD) (t : Fin cfg2.N) :
    (dat2 (F := Ideal) V c).flushed 2 t
      = ((cfg2.win 2).blk t).view.read (Elt Ideal) (Cert.Gine.msg (V c main_v23) (V c main_arg2)) := by
  show (cfg2.win 2).cut (grid2.coords t) ((dat2 (F := Ideal) V c).after 2 t) = _
  rw [after2_2]
  unfold out2_2
  rw [View.canon_unit_zero origin2]
  simp only [View.ld_unit_zero (S := S8000x128) origin2]
  obtain ⟨e00, e01, e10, e11, e20, e21⟩ := rows2 t
  funext j
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 128 + 1 * (j 1).val = win2_2.index t (1 : Fin 2) * 128 + 1 * (j 1).val; omega
  refine (payload2 _ _ j).trans ?_
  exact msg_at2 (V c main_v23) (V c main_arg2) _ _ _ h0 h1

/-- An index of the output array is in point t's block iff each coordinate is in the block's range on its axis. -/
theorem mem_block2 (t : Fin cfg2.N) (i : S640000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v24).slice (win2_2.rect t)).set ↔ _
  rw [View.set_slice_whole, Rect.mem_set_unit]
  exact Iff.rfl

/-- Every index of the output array is in some point's block: row r is in block row r / 8000, and the one block column is
    the whole second axis (80 blocks of 8000 rows are the 640000 rows). -/
theorem covered2 (i : S640000x128.Idx) :
    ∃ t : Fin cfg2.N, (cfg2.win 2).flush t = true ∧ i ∈ ((cfg2.win 2).blk t).view.set := by
  have hi0 : (i 0).val < 640000 := (i 0).isLt
  have hi1 : (i 1).val < 128 := (i 1).isLt
  have hN : cfg2.N = 80 := N_2
  let t : Fin cfg2.N := ⟨(i 0).val / 8000, by rw [hN]; omega⟩
  obtain ⟨-, -, -, -, e20, e21⟩ := rows2 t
  have ht : t.val = (i 0).val / 8000 := rfl
  refine ⟨t, flush2_2 t, ?_⟩
  rw [mem_block2]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 128 ≤ (i 1).val ∧ (i 1).val < win2_2.index t (1 : Fin 2) * 128 + 128; omega

/-- After the region's grid the output array holds the message of the two input arrays, index by index. -/
theorem msg2 (c : Dev nD) :
    (dat2 (F := Ideal) V c).arrAt 2 cfg2.N = Cert.Gine.msg (V c main_v23) (V c main_arg2) :=
  (dat2 (F := Ideal) V c).arrAt_eq_of_cover 2 (Cert.Gine.msg (V c main_v23) (V c main_arg2))
    (fun t _ => written2 V c t) covered2

end Cert.KernelIdeal.RegionValue

end
-- ==== Proof.UpdRegion1.lean ====
/- The first update region: after its 8 grid points the output array holds the node update of its four input arrays, index by index. -/
import proofs.«164732_j1073741824404_1_alg».proof.Proof.Gen.KernelIdeal.Frame
import proofs.«164732_j1073741824404_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the TensorCore's buffer contents when the region is entered
variable (V : (c : Dev nD) → (b : Ref sig .tc) → Buf (Elt Ideal) ((c : Thread nD τ).loc b))

/-! ## The body's result at an index -/

/-- The product's left operand is read at the output's row … -/
theorem upd_dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction's column; -/
theorem upd_dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction's row … -/
theorem upd_dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem upd_dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One row of a [1,128] array repeated down 5000 rows reads, at (p, q), the row's entry q. -/
theorem upd_bias_row_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- The product of a 5000 × 128 block with the 128 × 128 weights, accumulated from zero, at (p, q): the sum over the
    128 columns of the row p of the block times the column q of the weights. -/
theorem upd_rows_times_weights_apply (y : FVec Ideal S5000x128 .f32) (w : FVec Ideal S128x128 .f32) (p : Fin 5000) (q : Fin 128) :
    FloatOps.matmul dot_S5000x128_S128x128_S5000x128_1_0_0_1_n_n none y w (constant (F := Ideal) S5000x128 .f32 0x00000000#32) (ix2 p q)
      = ∑ k : Fin 128, y (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact upd_dot_lhs_0 _ _
    | ⟨1, _⟩ => exact (upd_dot_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (upd_dot_rhs_0 _ _).trans hk
    | ⟨1, _⟩ => exact upd_dot_rhs_1 _ _)
  rw [el, er]

/-- THE BODY'S RESULT AT (p, q): the node update of the loaded blocks. -/
theorem upd1_pay_apply (x0 x1 : Vec Ideal S5000x128 .f32) (w : Vec Ideal S128x128 .f32) (b : Vec Ideal S1x128 .f32) (p : Fin 5000) (q : Fin 128) :
    k1_pay1 (F := Ideal) x0 x1 w b (ix2 p q) = max ((∑ k : Fin 128, (x0 (ix2 p k) + x1 (ix2 p k)) * w (ix2 k q)) + b (ix2 0 q)) 0 := by
  unfold k1_pay1
  rw [shapeCast_self, shapeCast_self]
  show max (FloatOps.matmul dot_S5000x128_S128x128_S5000x128_1_0_0_1_n_n none (addf x0 x1) w (constant (F := Ideal) S5000x128 .f32 0x00000000#32) (ix2 p q)
      + broadcastTo S5000x128 b broadcasts_S1x128_S5000x128 (ix2 p q)) (Ideal.ofBits .f32 0x00000000#32) = _
  rw [Ideal.ofBits_zero_f32, upd_rows_times_weights_apply, upd_bias_row_apply]
  rfl

/-- The node update at an index from what is read there: if the two node rows, the weight column and the bias entry are
    the arrays' at index i's row and column, the clamped sum is the update at i. -/
theorem upd_of_reads (x a : FVec Ideal Cert.Gine.SN .f32) (W : FVec Ideal Cert.Gine.SW .f32) (b : FVec Ideal Cert.Gine.SB .f32)
    (i : Cert.Gine.SN.Idx) (r0 r1 wc : Fin 128 → EReal) (b0 : EReal)
    (h0 : ∀ k, r0 k = x (ix2 (i 0) k)) (h1 : ∀ k, r1 k = a (ix2 (i 0) k)) (h2 : ∀ k, wc k = W (ix2 k (i 1)))
    (h3 : b0 = b (ix2 0 (i 1))) :
    max ((∑ k : Fin 128, (r0 k + r1 k) * wc k) + b0) 0 = Cert.Gine.upd x a W b i := by
  unfold Cert.Gine.upd
  rw [h3]
  exact congrArg (fun z => max (z + b (ix2 0 (i 1))) 0) (Finset.sum_congr rfl fun k _ => by rw [h0 k, h1 k, h2 k])

/-! ## What each point writes back, and the blocks fill the array -/

/-- The offsets of every access in the body are zero on both axes. -/
theorem upd_zero_offsets : (![0, 0] : Fin 2 → Nat) = fun _ => 0 := funext fun a => by fin_cases a <;> rfl

/-- The block index maps, decided once over the 8 grid points: the two node arrays move with the output along the rows,
    the weights and the bias are read whole, and the output's block at point t is block t of the rows. -/
theorem upd1_blocks_at : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of the node update of the four arrays as the region finds them. -/
theorem upd1_flushed (c : Dev nD) (t : Fin cfg1.N) :
    (dat1 (F := Ideal) V c).flushed 4 t
      = ((cfg1.win 4).blk t).view.read (Elt Ideal) (Cert.Gine.upd (V c main_arg0) (V c main_v14) (V c main_arg3) (V c main_v15)) := by
  show (cfg1.win 4).cut (grid1.coords t) ((dat1 V c).after 4 t) = _
  rw [after1_4]
  unfold out1_4
  rw [View.canon_unit_zero upd_zero_offsets]
  simp only [View.ld_unit_zero (S := S5000x128) upd_zero_offsets, View.ld_unit_zero (S := S128x128) upd_zero_offsets,
    View.ld_unit_zero (S := S1x128) upd_zero_offsets]
  obtain ⟨e00, e01, e10, e11, e20, e21, e30, e31, e40, e41⟩ := upd1_blocks_at t
  funext j
  obtain ⟨p, q, rfl⟩ : ∃ (p : Fin 5000) (q : Fin 128), j = ix2 p q := ⟨j 0, j 1, eq_ix2 j⟩
  refine (upd1_pay_apply (iblk1 V c 0 t) (iblk1 V c 1 t) (iblk1 V c 2 t) (iblk1 V c 3 t) p q).trans ?_
  refine upd_of_reads (V c main_arg0) (V c main_v14) (V c main_arg3) (V c main_v15) (((cfg1.win 4).blk t).view.emb (ix2 p q))
    (fun k => iblk1 V c 0 t (ix2 p k)) (fun k => iblk1 V c 1 t (ix2 p k)) (fun k => iblk1 V c 2 t (ix2 k q))
    (iblk1 V c 3 t (ix2 0 q)) (fun k => ?_) (fun k => ?_) (fun k => ?_) ?_
  -- row p of a node block is row (block index) × 5000 + p of its array, and the columns are the array's;
  · exact congrArg (V c main_arg0) (funext fun a => Fin.ext (by
      match a with
      | ⟨0, _⟩ => show win1_0.index t (0 : Fin 2) * 5000 + 1 * p.val = win1_4.index t (0 : Fin 2) * 5000 + 1 * p.val; omega
      | ⟨1, _⟩ => show win1_0.index t (1 : Fin 2) * 128 + 1 * k.val = k.val; omega))
  · exact congrArg (V c main_v14) (funext fun a => Fin.ext (by
      match a with
      | ⟨0, _⟩ => show win1_1.index t (0 : Fin 2) * 5000 + 1 * p.val = win1_4.index t (0 : Fin 2) * 5000 + 1 * p.val; omega
      | ⟨1, _⟩ => show win1_1.index t (1 : Fin 2) * 128 + 1 * k.val = k.val; omega))
  -- the weights and the bias are one block each, read at the output's column.
  · exact congrArg (V c main_arg3) (funext fun a => Fin.ext (by
      match a with
      | ⟨0, _⟩ => show win1_2.index t (0 : Fin 2) * 128 + 1 * k.val = k.val; omega
      | ⟨1, _⟩ => show win1_2.index t (1 : Fin 2) * 128 + 1 * q.val = win1_4.index t (1 : Fin 2) * 128 + 1 * q.val; omega))
  · exact congrArg (V c main_v15) (funext fun a => Fin.ext (by
      match a with
      | ⟨0, _⟩ => show win1_3.index t (0 : Fin 2) * 1 + 1 * 0 = 0; omega
      | ⟨1, _⟩ => show win1_3.index t (1 : Fin 2) * 128 + 1 * q.val = win1_4.index t (1 : Fin 2) * 128 + 1 * q.val; omega))

/-- An index of the output array is in point t's block iff each coordinate is in the block's range on its axis. -/
theorem upd1_mem_block (t : Fin cfg1.N) (i : S40000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v16).slice (win1_4.rect t)).set ↔ _
  rw [View.set_slice_whole, Rect.mem_set_unit]
  exact Iff.rfl

/-- The 8 blocks of 5000 rows fill the 40000 rows: row r is in the block of point r / 5000. -/
theorem upd1_rows_covered (i : S40000x128.Idx) :
    ∃ t : Fin cfg1.N, (cfg1.win 4).flush t = true ∧ i ∈ ((cfg1.win 4).blk t).view.set := by
  have hi0 : (i 0).val < 40000 := (i 0).isLt
  have hi1 : (i 1).val < 128 := (i 1).isLt
  have hN : (i 0).val / 5000 < cfg1.N := by show _ < grid1.N; rw [N_1]; omega
  obtain ⟨t, ht⟩ : ∃ t : Fin cfg1.N, t.val = (i 0).val / 5000 := ⟨⟨_, hN⟩, rfl⟩
  obtain ⟨-, -, -, -, -, -, -, -, e40, e41⟩ := upd1_blocks_at t
  refine ⟨t, flush1_4 t, ?_⟩
  rw [upd1_mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

theorem upd1 (c : Dev nD) :
    (dat1 (F := Ideal) V c).arrAt 4 cfg1.N = Cert.Gine.upd (V c main_arg0) (V c main_v14) (V c main_arg3) (V c main_v15) := by
  exact (dat1 V c).arrAt_eq_of_cover 4 _ (fun t _ => upd1_flushed V c t) upd1_rows_covered

end Cert.KernelIdeal.RegionValue

end
-- ==== Proof.UpdRegion3.lean ====
/- The second update region: after its 8 grid points the output array holds the node update of its four input arrays, index by index. -/
import proofs.«164732_j1073741824404_1_alg».proof.Proof.Gen.KernelIdeal.Frame
import proofs.«164732_j1073741824404_1_alg».proof.Proof.Spec
import proofs.«164732_j1073741824404_1_alg».proof.Proof.UpdRegion1
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the TensorCore's buffer contents when the region is entered
variable (V : (c : Dev nD) → (b : Ref sig .tc) → Buf (Elt Ideal) ((c : Thread nD τ).loc b))

/-! ## The body's result at an index

The shapes and the product's dimension numbers are the first update region's, so the product, the bias row and the
update-from-its-reads lemmas are that module's; here both summands of the node rows pass through a same-shape cast. -/

/-- THE BODY'S RESULT AT (p, q): the node update of the loaded blocks. -/
theorem upd3_pay_apply (x0 x1 : Vec Ideal S5000x128 .f32) (w : Vec Ideal S128x128 .f32) (b : Vec Ideal S1x128 .f32) (p : Fin 5000) (q : Fin 128) :
    k3_pay1 (F := Ideal) x0 x1 w b (ix2 p q) = max ((∑ k : Fin 128, (x0 (ix2 p k) + x1 (ix2 p k)) * w (ix2 k q)) + b (ix2 0 q)) 0 := by
  unfold k3_pay1
  rw [shapeCast_self, shapeCast_self, shapeCast_self]
  show max (FloatOps.matmul dot_S5000x128_S128x128_S5000x128_1_0_0_1_n_n none (addf x0 x1) w (constant (F := Ideal) S5000x128 .f32 0x00000000#32) (ix2 p q)
      + broadcastTo S5000x128 b broadcasts_S1x128_S5000x128 (ix2 p q)) (Ideal.ofBits .f32 0x00000000#32) = _
  rw [Ideal.ofBits_zero_f32, upd_rows_times_weights_apply, upd_bias_row_apply]
  rfl

/-! ## What each point writes back, and the blocks fill the array -/

/-- The block index maps, decided once over the 8 grid points: the two node arrays move with the output along the rows,
    the weights and the bias are read whole, and the output's block at point t is block t of the rows. -/
theorem upd3_blocks_at : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT t WRITES BACK is block t of the node update of the four arrays as the region finds them. -/
theorem upd3_flushed (c : Dev nD) (t : Fin cfg3.N) :
    (dat3 (F := Ideal) V c).flushed 4 t
      = ((cfg3.win 4).blk t).view.read (Elt Ideal) (Cert.Gine.upd (V c main_v16) (V c main_v27) (V c main_arg5) (V c main_v28)) := by
  show (cfg3.win 4).cut (grid3.coords t) ((dat3 V c).after 4 t) = _
  rw [after3_4]
  unfold out3_4
  rw [View.canon_unit_zero upd_zero_offsets]
  simp only [View.ld_unit_zero (S := S5000x128) upd_zero_offsets, View.ld_unit_zero (S := S128x128) upd_zero_offsets,
    View.ld_unit_zero (S := S1x128) upd_zero_offsets]
  obtain ⟨e00, e01, e10, e11, e20, e21, e30, e31, e40, e41⟩ := upd3_blocks_at t
  funext j
  obtain ⟨p, q, rfl⟩ : ∃ (p : Fin 5000) (q : Fin 128), j = ix2 p q := ⟨j 0, j 1, eq_ix2 j⟩
  refine (upd3_pay_apply (iblk3 V c 0 t) (iblk3 V c 1 t) (iblk3 V c 2 t) (iblk3 V c 3 t) p q).trans ?_
  refine upd_of_reads (V c main_v16) (V c main_v27) (V c main_arg5) (V c main_v28) (((cfg3.win 4).blk t).view.emb (ix2 p q))
    (fun k => iblk3 V c 0 t (ix2 p k)) (fun k => iblk3 V c 1 t (ix2 p k)) (fun k => iblk3 V c 2 t (ix2 k q))
    (iblk3 V c 3 t (ix2 0 q)) (fun k => ?_) (fun k => ?_) (fun k => ?_) ?_
  -- row p of a node block is row (block index) × 5000 + p of its array, and the columns are the array's;
  · exact congrArg (V c main_v16) (funext fun a => Fin.ext (by
      match a with
      | ⟨0, _⟩ => show win3_0.index t (0 : Fin 2) * 5000 + 1 * p.val = win3_4.index t (0 : Fin 2) * 5000 + 1 * p.val; omega
      | ⟨1, _⟩ => show win3_0.index t (1 : Fin 2) * 128 + 1 * k.val = k.val; omega))
  · exact congrArg (V c main_v27) (funext fun a => Fin.ext (by
      match a with
      | ⟨0, _⟩ => show win3_1.index t (0 : Fin 2) * 5000 + 1 * p.val = win3_4.index t (0 : Fin 2) * 5000 + 1 * p.val; omega
      | ⟨1, _⟩ => show win3_1.index t (1 : Fin 2) * 128 + 1 * k.val = k.val; omega))
  -- the weights and the bias are one block each, read at the output's column.
  · exact congrArg (V c main_arg5) (funext fun a => Fin.ext (by
      match a with
      | ⟨0, _⟩ => show win3_2.index t (0 : Fin 2) * 128 + 1 * k.val = k.val; omega
      | ⟨1, _⟩ => show win3_2.index t (1 : Fin 2) * 128 + 1 * q.val = win3_4.index t (1 : Fin 2) * 128 + 1 * q.val; omega))
  · exact congrArg (V c main_v28) (funext fun a => Fin.ext (by
      match a with
      | ⟨0, _⟩ => show win3_3.index t (0 : Fin 2) * 1 + 1 * 0 = 0; omega
      | ⟨1, _⟩ => show win3_3.index t (1 : Fin 2) * 128 + 1 * q.val = win3_4.index t (1 : Fin 2) * 128 + 1 * q.val; omega))

/-- An index of the output array is in point t's block iff each coordinate is in the block's range on its axis. -/
theorem upd3_mem_block (t : Fin cfg3.N) (i : S40000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v29).slice (win3_4.rect t)).set ↔ _
  rw [View.set_slice_whole, Rect.mem_set_unit]
  exact Iff.rfl

/-- The 8 blocks of 5000 rows fill the 40000 rows: row r is in the block of point r / 5000. -/
theorem upd3_rows_covered (i : S40000x128.Idx) :
    ∃ t : Fin cfg3.N, (cfg3.win 4).flush t = true ∧ i ∈ ((cfg3.win 4).blk t).view.set := by
  have hi0 : (i 0).val < 40000 := (i 0).isLt
  have hi1 : (i 1).val < 128 := (i 1).isLt
  have hN : (i 0).val / 5000 < cfg3.N := by show _ < grid3.N; rw [N_3]; omega
  obtain ⟨t, ht⟩ : ∃ t : Fin cfg3.N, t.val = (i 0).val / 5000 := ⟨⟨_, hN⟩, rfl⟩
  obtain ⟨-, -, -, -, -, -, -, -, e40, e41⟩ := upd3_blocks_at t
  refine ⟨t, flush3_4 t, ?_⟩
  rw [upd3_mem_block]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

theorem upd3 (c : Dev nD) :
    (dat3 (F := Ideal) V c).arrAt 4 cfg3.N = Cert.Gine.upd (V c main_v16) (V c main_v27) (V c main_arg5) (V c main_v28) := by
  exact (dat3 V c).arrAt_eq_of_cover 4 _ (fun t _ => upd3_flushed V c t) upd3_rows_covered

end Cert.KernelIdeal.RegionValue

end
-- ==== Proof.KernelValue.lean ====
/-
  The idealized kernel's result as two layers of the specification.

  @main is four kernel regions among stretches of host operations. The buffer contents at the nine boundaries are a
  fold from the launch memory: a host stretch applies its operations, a region leaves each input array as it found it
  and its output array at what its grid points wrote back. Walking the fold forward: the source and destination
  indices and the first gather (stretch 0); the first message array (region 0); its scatter-sum and the first bias row
  (stretch 1); the first node update (region 1); the second gather (stretch 2); the second message array (region 2);
  its scatter-sum and the second bias row (stretch 3); the second node update (region 3), which is the result.
  Every argument, and the two index vectors, are written by nothing after stretch 0 and are carried along.
-/
import proofs.«164732_j1073741824404_1_alg».proof.Proof.Gen.KernelIdeal.Frame
import proofs.«164732_j1073741824404_1_alg».proof.Proof.Spec
import proofs.«164732_j1073741824404_1_alg».proof.Proof.MsgRegion0
import proofs.«164732_j1073741824404_1_alg».proof.Proof.MsgRegion2
import proofs.«164732_j1073741824404_1_alg».proof.Proof.UpdRegion1
import proofs.«164732_j1073741824404_1_alg».proof.Proof.UpdRegion3
import Idealize.ShloMosaic.Lib.StableHlo.Run

set_option maxRecDepth 16384

noncomputable section

namespace Cert.KernelIdeal.KValue

open Cert.KernelIdeal Cert.KernelIdeal.Gen Cert.KernelIdeal.RegionValue
open Idealize.ShloMosaic Idealize.ShloMosaic.TcCoe Idealize.SL.Sem Idealize.ShloMosaic.StableHlo
open Cert.Gine (msg upd layer)

/-! ## The host operations' whole-array functions -/

/-- The start indices of the gather: each edge's source node, a negative index wrapped once by the number of nodes. -/
def srcIdx (a1 : (⟨S2x640000, .i32⟩ : BufTy).Contents (Elt Ideal)) : (⟨S640000x1, .i32⟩ : BufTy).Contents (Elt Ideal) :=
  broadcastInDim S640000x1 ![0] bcast_S640000_S640000x1_0 (select (cmpi .slt (shapeCast _ (extractStridedSlice S1x640000 ![0, 0] a1 slices_S2x640000_S1x640000_0_0) shapeCasts_S1x640000_S640000) (broadcastInDim S640000 ![] bcast_S_S640000 (constantI S_ 32 0#32))) (addi (shapeCast _ (extractStridedSlice S1x640000 ![0, 0] a1 slices_S2x640000_S1x640000_0_0) shapeCasts_S1x640000_S640000) (broadcastInDim S640000 ![] bcast_S_S640000 (constantI S_ 32 40000#32))) (shapeCast _ (extractStridedSlice S1x640000 ![0, 0] a1 slices_S2x640000_S1x640000_0_0) shapeCasts_S1x640000_S640000))

/-- The scatter indices: each edge's destination node. -/
def dstIdx (a1 : (⟨S2x640000, .i32⟩ : BufTy).Contents (Elt Ideal)) : (⟨S640000x1, .i32⟩ : BufTy).Contents (Elt Ideal) :=
  broadcastInDim S640000x1 ![0] bcast_S640000_S640000x1_0 (shapeCast _ (extractStridedSlice S1x640000 ![1, 0] a1 slices_S2x640000_S1x640000_1_0) shapeCasts_S1x640000_S640000)

/-- The rows of the source nodes along the edges. -/
def gath (a1 : (⟨S2x640000, .i32⟩ : BufTy).Contents (Elt Ideal)) (x : FVec Ideal S40000x128 .f32) : FVec Ideal S640000x128 .f32 :=
  Host.gather gather_S40000x128_S640000x1_S640000x128_1_0_n_n_0_1_1128 x (srcIdx a1)

/-- The sum, at each node, of the edge rows arriving there. -/
def scat (a1 : (⟨S2x640000, .i32⟩ : BufTy).Contents (Elt Ideal)) (u : FVec Ideal S640000x128 .f32) : FVec Ideal S40000x128 .f32 :=
  Host.scatterAdd scatter_S40000x128_S640000x1_S640000x128_1_0_0_1 (broadcastInDim S40000x128 ![] bcast_S_S40000x128 (constant S_ .f32 0x00000000#32)) (dstIdx a1) u

/-- The bias as one row. -/
def bias (b : FVec Ideal S128 .f32) : FVec Ideal S1x128 .f32 := shapeCast _ b shapeCasts_S128_S1x128

variable (m : (ℓ : Loc nD τ sig) → Buf (Elt Ideal) ℓ) (ρ : Dev nD → PrngReg) (c : Dev nD)

/-! ## The launch contents, named -/

abbrev a0 := m ((c : Thread nD τ).loc main_arg0)
abbrev a1 := m ((c : Thread nD τ).loc main_arg1)
abbrev e := m ((c : Thread nD τ).loc main_arg2)
abbrev w1 := m ((c : Thread nD τ).loc main_arg3)
abbrev b1 := m ((c : Thread nD τ).loc main_arg4)
abbrev w2 := m ((c : Thread nD τ).loc main_arg5)
abbrev b2 := m ((c : Thread nD τ).loc main_arg6)

/-- The first layer's node features. -/
def h1 : FVec Ideal S40000x128 .f32 := upd (a0 m c) (scat (a1 m c) (msg (gath (a1 m c) (a0 m c)) (e m c))) (w1 m c) (bias (b1 m c))

/-! ## Boundary 1: after the first stretch of host operations -/

theorem W1_arg0 : W1 m ρ c (Proc.devRef .tc main_arg0) = a0 m c := by
  show StableHlo.after hostOps0 (W0 m ρ c) (Proc.devRef .tc main_arg0) = _; after_results <;> rfl
theorem W1_arg2 : W1 m ρ c (Proc.devRef .tc main_arg2) = e m c := by
  show StableHlo.after hostOps0 (W0 m ρ c) (Proc.devRef .tc main_arg2) = _; after_results <;> rfl
theorem W1_arg3 : W1 m ρ c (Proc.devRef .tc main_arg3) = w1 m c := by
  show StableHlo.after hostOps0 (W0 m ρ c) (Proc.devRef .tc main_arg3) = _; after_results <;> rfl
theorem W1_arg4 : W1 m ρ c (Proc.devRef .tc main_arg4) = b1 m c := by
  show StableHlo.after hostOps0 (W0 m ρ c) (Proc.devRef .tc main_arg4) = _; after_results <;> rfl
theorem W1_arg5 : W1 m ρ c (Proc.devRef .tc main_arg5) = w2 m c := by
  show StableHlo.after hostOps0 (W0 m ρ c) (Proc.devRef .tc main_arg5) = _; after_results <;> rfl
theorem W1_arg6 : W1 m ρ c (Proc.devRef .tc main_arg6) = b2 m c := by
  show StableHlo.after hostOps0 (W0 m ρ c) (Proc.devRef .tc main_arg6) = _; after_results <;> rfl
/-- The source indices as one vector. -/
theorem W1_v1 : W1 m ρ c (Proc.devRef .tc main_v1)
    = shapeCast _ (extractStridedSlice S1x640000 ![0, 0] (a1 m c) slices_S2x640000_S1x640000_0_0) shapeCasts_S1x640000_S640000 := by
  show StableHlo.after hostOps0 (W0 m ρ c) (Proc.devRef .tc main_v1) = _; after_results <;> rfl
/-- The destination indices as one vector. -/
theorem W1_v3 : W1 m ρ c (Proc.devRef .tc main_v3)
    = shapeCast _ (extractStridedSlice S1x640000 ![1, 0] (a1 m c) slices_S2x640000_S1x640000_1_0) shapeCasts_S1x640000_S640000 := by
  show StableHlo.after hostOps0 (W0 m ρ c) (Proc.devRef .tc main_v3) = _; after_results <;> rfl
/-- The first gather: the launch node features along the edges. -/
theorem W1_v10 : W1 m ρ c (Proc.devRef .tc main_v10) = gath (a1 m c) (a0 m c) := by
  show StableHlo.after hostOps0 (W0 m ρ c) (Proc.devRef .tc main_v10) = _; after_results <;> rfl

/-! ## Boundary 2: after the first message region -/

/-- The first message array. -/
theorem W2_v11 : W2 m ρ c (Proc.devRef .tc main_v11) = msg (gath (a1 m c) (a0 m c)) (e m c) := by
  refine (W2_arr m ρ c 2).trans ((msg0 (V1 m ρ) c).trans ?_)
  show msg (W1 m ρ c (Proc.devRef .tc main_v10)) (W1 m ρ c (Proc.devRef .tc main_arg2)) = _
  rw [W1_v10, W1_arg2]
theorem W2_arg0 : W2 m ρ c (Proc.devRef .tc main_arg0) = a0 m c := (W2_of_ne m ρ c main_arg0 (by decide)).trans (W1_arg0 m ρ c)
theorem W2_arg2 : W2 m ρ c (Proc.devRef .tc main_arg2) = e m c :=
  ((W2_arr m ρ c 1).trans (((dat0 (V1 m ρ) c).arrAt_in 1 rfl _).trans (A_eq0 (V1 m ρ) c 1))).trans (W1_arg2 m ρ c)
theorem W2_arg3 : W2 m ρ c (Proc.devRef .tc main_arg3) = w1 m c := (W2_of_ne m ρ c main_arg3 (by decide)).trans (W1_arg3 m ρ c)
theorem W2_arg4 : W2 m ρ c (Proc.devRef .tc main_arg4) = b1 m c := (W2_of_ne m ρ c main_arg4 (by decide)).trans (W1_arg4 m ρ c)
theorem W2_arg5 : W2 m ρ c (Proc.devRef .tc main_arg5) = w2 m c := (W2_of_ne m ρ c main_arg5 (by decide)).trans (W1_arg5 m ρ c)
theorem W2_arg6 : W2 m ρ c (Proc.devRef .tc main_arg6) = b2 m c := (W2_of_ne m ρ c main_arg6 (by decide)).trans (W1_arg6 m ρ c)
theorem W2_v1 : W2 m ρ c (Proc.devRef .tc main_v1)
    = shapeCast _ (extractStridedSlice S1x640000 ![0, 0] (a1 m c) slices_S2x640000_S1x640000_0_0) shapeCasts_S1x640000_S640000 :=
  (W2_of_ne m ρ c main_v1 (by decide)).trans (W1_v1 m ρ c)
theorem W2_v3 : W2 m ρ c (Proc.devRef .tc main_v3)
    = shapeCast _ (extractStridedSlice S1x640000 ![1, 0] (a1 m c) slices_S2x640000_S1x640000_1_0) shapeCasts_S1x640000_S640000 :=
  (W2_of_ne m ρ c main_v3 (by decide)).trans (W1_v3 m ρ c)

/-! ## Boundary 3: after the second stretch of host operations -/

/-- The first scatter-sum. -/
theorem W3_v14 : W3 m ρ c (Proc.devRef .tc main_v14) = scat (a1 m c) (msg (gath (a1 m c) (a0 m c)) (e m c)) := by
  show StableHlo.after hostOps1 (W2 m ρ c) (Proc.devRef .tc main_v14) = _
  after_results
  rw [W2_v3, W2_v11]; rfl
/-- The first bias as a row. -/
theorem W3_v15 : W3 m ρ c (Proc.devRef .tc main_v15) = bias (b1 m c) := by
  show StableHlo.after hostOps1 (W2 m ρ c) (Proc.devRef .tc main_v15) = _
  after_results
  rw [W2_arg4]; rfl
theorem W3_arg0 : W3 m ρ c (Proc.devRef .tc main_arg0) = a0 m c := by
  show StableHlo.after hostOps1 (W2 m ρ c) (Proc.devRef .tc main_arg0) = _; after_results; exact W2_arg0 m ρ c
theorem W3_arg2 : W3 m ρ c (Proc.devRef .tc main_arg2) = e m c := by
  show StableHlo.after hostOps1 (W2 m ρ c) (Proc.devRef .tc main_arg2) = _; after_results; exact W2_arg2 m ρ c
theorem W3_arg3 : W3 m ρ c (Proc.devRef .tc main_arg3) = w1 m c := by
  show StableHlo.after hostOps1 (W2 m ρ c) (Proc.devRef .tc main_arg3) = _; after_results; exact W2_arg3 m ρ c
theorem W3_arg5 : W3 m ρ c (Proc.devRef .tc main_arg5) = w2 m c := by
  show StableHlo.after hostOps1 (W2 m ρ c) (Proc.devRef .tc main_arg5) = _; after_results; exact W2_arg5 m ρ c
theorem W3_arg6 : W3 m ρ c (Proc.devRef .tc main_arg6) = b2 m c := by
  show StableHlo.after hostOps1 (W2 m ρ c) (Proc.devRef .tc main_arg6) = _; after_results; exact W2_arg6 m ρ c
theorem W3_v1 : W3 m ρ c (Proc.devRef .tc main_v1)
    = shapeCast _ (extractStridedSlice S1x640000 ![0, 0] (a1 m c) slices_S2x640000_S1x640000_0_0) shapeCasts_S1x640000_S640000 := by
  show StableHlo.after hostOps1 (W2 m ρ c) (Proc.devRef .tc main_v1) = _; after_results; exact W2_v1 m ρ c
theorem W3_v3 : W3 m ρ c (Proc.devRef .tc main_v3)
    = shapeCast _ (extractStridedSlice S1x640000 ![1, 0] (a1 m c) slices_S2x640000_S1x640000_1_0) shapeCasts_S1x640000_S640000 := by
  show StableHlo.after hostOps1 (W2 m ρ c) (Proc.devRef .tc main_v3) = _; after_results; exact W2_v3 m ρ c

/-! ## Boundary 4: after the first update region -/

/-- The first layer's node features. -/
theorem W4_v16 : W4 m ρ c (Proc.devRef .tc main_v16) = h1 m c := by
  refine (W4_arr m ρ c 4).trans ((upd1 (V3 m ρ) c).trans ?_)
  show upd (W3 m ρ c (Proc.devRef .tc main_arg0)) (W3 m ρ c (Proc.devRef .tc main_v14)) (W3 m ρ c (Proc.devRef .tc main_arg3)) (W3 m ρ c (Proc.devRef .tc main_v15)) = _
  rw [W3_arg0, W3_v14, W3_arg3, W3_v15]; rfl
theorem W4_arg2 : W4 m ρ c (Proc.devRef .tc main_arg2) = e m c := (W4_of_ne m ρ c main_arg2 (by decide)).trans (W3_arg2 m ρ c)
theorem W4_arg5 : W4 m ρ c (Proc.devRef .tc main_arg5) = w2 m c := (W4_of_ne m ρ c main_arg5 (by decide)).trans (W3_arg5 m ρ c)
theorem W4_arg6 : W4 m ρ c (Proc.devRef .tc main_arg6) = b2 m c := (W4_of_ne m ρ c main_arg6 (by decide)).trans (W3_arg6 m ρ c)
theorem W4_v1 : W4 m ρ c (Proc.devRef .tc main_v1)
    = shapeCast _ (extractStridedSlice S1x640000 ![0, 0] (a1 m c) slices_S2x640000_S1x640000_0_0) shapeCasts_S1x640000_S640000 :=
  (W4_of_ne m ρ c main_v1 (by decide)).trans (W3_v1 m ρ c)
theorem W4_v3 : W4 m ρ c (Proc.devRef .tc main_v3)
    = shapeCast _ (extractStridedSlice S1x640000 ![1, 0] (a1 m c) slices_S2x640000_S1x640000_1_0) shapeCasts_S1x640000_S640000 :=
  (W4_of_ne m ρ c main_v3 (by decide)).trans (W3_v3 m ρ c)

/-! ## Boundary 5: after the third stretch of host operations -/

/-- The second gather: the first layer's node features along the edges. -/
theorem W5_v23 : W5 m ρ c (Proc.devRef .tc main_v23) = gath (a1 m c) (h1 m c) := by
  show StableHlo.after hostOps2 (W4 m ρ c) (Proc.devRef .tc main_v23) = _
  after_results
  rw [W4_v1, W4_v16]; rfl
theorem W5_v16 : W5 m ρ c (Proc.devRef .tc main_v16) = h1 m c := by
  show StableHlo.after hostOps2 (W4 m ρ c) (Proc.devRef .tc main_v16) = _; after_results; exact W4_v16 m ρ c
theorem W5_arg2 : W5 m ρ c (Proc.devRef .tc main_arg2) = e m c := by
  show StableHlo.after hostOps2 (W4 m ρ c) (Proc.devRef .tc main_arg2) = _; after_results; exact W4_arg2 m ρ c
theorem W5_arg5 : W5 m ρ c (Proc.devRef .tc main_arg5) = w2 m c := by
  show StableHlo.after hostOps2 (W4 m ρ c) (Proc.devRef .tc main_arg5) = _; after_results; exact W4_arg5 m ρ c
theorem W5_arg6 : W5 m ρ c (Proc.devRef .tc main_arg6) = b2 m c := by
  show StableHlo.after hostOps2 (W4 m ρ c) (Proc.devRef .tc main_arg6) = _; after_results; exact W4_arg6 m ρ c
theorem W5_v3 : W5 m ρ c (Proc.devRef .tc main_v3)
    = shapeCast _ (extractStridedSlice S1x640000 ![1, 0] (a1 m c) slices_S2x640000_S1x640000_1_0) shapeCasts_S1x640000_S640000 := by
  show StableHlo.after hostOps2 (W4 m ρ c) (Proc.devRef .tc main_v3) = _; after_results; exact W4_v3 m ρ c

/-! ## Boundary 6: after the second message region -/

/-- The second message array. -/
theorem W6_v24 : W6 m ρ c (Proc.devRef .tc main_v24) = msg (gath (a1 m c) (h1 m c)) (e m c) := by
  refine (W6_arr m ρ c 2).trans ((msg2 (V5 m ρ) c).trans ?_)
  show msg (W5 m ρ c (Proc.devRef .tc main_v23)) (W5 m ρ c (Proc.devRef .tc main_arg2)) = _
  rw [W5_v23, W5_arg2]
theorem W6_v16 : W6 m ρ c (Proc.devRef .tc main_v16) = h1 m c := (W6_of_ne m ρ c main_v16 (by decide)).trans (W5_v16 m ρ c)
theorem W6_arg5 : W6 m ρ c (Proc.devRef .tc main_arg5) = w2 m c := (W6_of_ne m ρ c main_arg5 (by decide)).trans (W5_arg5 m ρ c)
theorem W6_arg6 : W6 m ρ c (Proc.devRef .tc main_arg6) = b2 m c := (W6_of_ne m ρ c main_arg6 (by decide)).trans (W5_arg6 m ρ c)
theorem W6_v3 : W6 m ρ c (Proc.devRef .tc main_v3)
    = shapeCast _ (extractStridedSlice S1x640000 ![1, 0] (a1 m c) slices_S2x640000_S1x640000_1_0) shapeCasts_S1x640000_S640000 :=
  (W6_of_ne m ρ c main_v3 (by decide)).trans (W5_v3 m ρ c)

/-! ## Boundary 7: after the fourth stretch of host operations -/

/-- The second scatter-sum. -/
theorem W7_v27 : W7 m ρ c (Proc.devRef .tc main_v27) = scat (a1 m c) (msg (gath (a1 m c) (h1 m c)) (e m c)) := by
  show StableHlo.after hostOps3 (W6 m ρ c) (Proc.devRef .tc main_v27) = _
  after_results
  rw [W6_v3, W6_v24]; rfl
/-- The second bias as a row. -/
theorem W7_v28 : W7 m ρ c (Proc.devRef .tc main_v28) = bias (b2 m c) := by
  show StableHlo.after hostOps3 (W6 m ρ c) (Proc.devRef .tc main_v28) = _
  after_results
  rw [W6_arg6]; rfl
theorem W7_v16 : W7 m ρ c (Proc.devRef .tc main_v16) = h1 m c := by
  show StableHlo.after hostOps3 (W6 m ρ c) (Proc.devRef .tc main_v16) = _; after_results; exact W6_v16 m ρ c
theorem W7_arg5 : W7 m ρ c (Proc.devRef .tc main_arg5) = w2 m c := by
  show StableHlo.after hostOps3 (W6 m ρ c) (Proc.devRef .tc main_arg5) = _; after_results; exact W6_arg5 m ρ c

/-! ## Boundary 8: the result -/

/-- The result buffer at the last boundary is the second layer over the first. -/
theorem result_eq : W8 m ρ c (Proc.devRef .tc main_v29)
    = layer (gath (a1 m c)) (scat (a1 m c)) (layer (gath (a1 m c)) (scat (a1 m c)) (a0 m c) (e m c) (w1 m c) (bias (b1 m c)))
        (e m c) (w2 m c) (bias (b2 m c)) := by
  refine (W8_arr m ρ c 4).trans ((upd3 (V7 m ρ) c).trans ?_)
  show upd (W7 m ρ c (Proc.devRef .tc main_v16)) (W7 m ρ c (Proc.devRef .tc main_v27)) (W7 m ρ c (Proc.devRef .tc main_arg5)) (W7 m ρ c (Proc.devRef .tc main_v28)) = _
  rw [W7_v16, W7_v27, W7_arg5, W7_v28]; rfl

end Cert.KernelIdeal.KValue

end
-- ==== Proof.RefValue.lean ====
/-
  The reference program's result as two layers of the specification.

  The reference computes, per layer: the rows of the source nodes gathered along the edges, plus the edge features,
  clamped at zero; their scatter-sum into the destination nodes; the node update by a host matrix product, the bias
  broadcast over the rows, clamped at zero. Read at an index, the clamp against a broadcast zero is `max · 0`, the
  host matrix product is the sum over the one contracted axis, and the doubly broadcast bias is the bias at the column.
-/
import proofs.«164732_j1073741824404_1_alg».proof.Proof.Gen.ReferenceIdeal.Read
import proofs.«164732_j1073741824404_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The start indices of the gather: each edge's source node, a negative index wrapped once by the number of nodes. -/
def srcIdx (a1 : (⟨S2x640000, .i32⟩ : BufTy).Contents (Elt Ideal)) : (⟨S640000x1, .i32⟩ : BufTy).Contents (Elt Ideal) :=
  broadcastInDim S640000x1 ![0] bcast_S640000_S640000x1_0 (select (cmpi .slt (shapeCast _ (extractStridedSlice S1x640000 ![0, 0] a1 slices_S2x640000_S1x640000_0_0) shapeCasts_S1x640000_S640000) (broadcastInDim S640000 ![] bcast_S_S640000 (constantI S_ 32 0#32))) (addi (shapeCast _ (extractStridedSlice S1x640000 ![0, 0] a1 slices_S2x640000_S1x640000_0_0) shapeCasts_S1x640000_S640000) (broadcastInDim S640000 ![] bcast_S_S640000 (constantI S_ 32 40000#32))) (shapeCast _ (extractStridedSlice S1x640000 ![0, 0] a1 slices_S2x640000_S1x640000_0_0) shapeCasts_S1x640000_S640000))

/-- The scatter indices: each edge's destination node. -/
def dstIdx (a1 : (⟨S2x640000, .i32⟩ : BufTy).Contents (Elt Ideal)) : (⟨S640000x1, .i32⟩ : BufTy).Contents (Elt Ideal) :=
  broadcastInDim S640000x1 ![0] bcast_S640000_S640000x1_0 (shapeCast _ (extractStridedSlice S1x640000 ![1, 0] a1 slices_S2x640000_S1x640000_1_0) shapeCasts_S1x640000_S640000)

/-- The rows of the source nodes along the edges. -/
def gath (a1 : (⟨S2x640000, .i32⟩ : BufTy).Contents (Elt Ideal)) (x : FVec Ideal S40000x128 .f32) : FVec Ideal S640000x128 .f32 :=
  Host.gather gather_S40000x128_S640000x1_S640000x128_1_0_n_n_0_1_1128 x (srcIdx a1)

/-- The sum, at each node, of the edge rows arriving there. -/
def scat (a1 : (⟨S2x640000, .i32⟩ : BufTy).Contents (Elt Ideal)) (u : FVec Ideal S640000x128 .f32) : FVec Ideal S40000x128 .f32 :=
  Host.scatterAdd scatter_S40000x128_S640000x1_S640000x128_1_0_0_1 (broadcastInDim S40000x128 ![] bcast_S_S40000x128 (constant S_ .f32 0x00000000#32)) (dstIdx a1) u

/-- The bias as one row. -/
def bias (b : FVec Ideal S128 .f32) : FVec Ideal S1x128 .f32 := broadcastInDim S1x128 ![1] bcast_S128_S1x128_1 b

/-- The clamp of a sum against the broadcast zero is the message, index by index: a rank-0 constant broadcast to
    every index reads as that constant, and the zero word is the real zero. -/
theorem msg_eq (g e : FVec Ideal S640000x128 .f32) :
    maximumf (addf g e) (broadcastInDim S640000x128 ![] bcast_S_S640000x128 (constant S_ .f32 0x00000000#32))
      = Cert.Gine.msg g e := by
  funext i
  have hz : broadcastInDim S640000x128 ![] bcast_S_S640000x128 (constant (F := Ideal) S_ .f32 0x00000000#32) i = 0 := by
    rw [broadcastInDim_apply _ bcast_S_S640000x128 (constant (F := Ideal) S_ .f32 0x00000000#32) i (fun a => a.elim0) (fun a => a.elim0)]
    exact Ideal.ofBits_zero_f32
  show max (g i + e i) (broadcastInDim S640000x128 ![] bcast_S_S640000x128 (constant (F := Ideal) S_ .f32 0x00000000#32) i) = max (g i + e i) 0
  rw [hz]

/-- The host matrix product of a sum, plus the bias row broadcast over the rows, clamped against the broadcast zero, is the
    node update, index by index: the product's element is the sum over the one contracted axis. -/
theorem upd_eq (x a : FVec Ideal S40000x128 .f32) (W : FVec Ideal S128x128 .f32) (b : FVec Ideal S1x128 .f32) :
    maximumf (addf (Host.dotGeneral dot_S40000x128_S128x128_S40000x128_1_0_0_1_n_n none (addf x a) W)
        (broadcastInDim S40000x128 ![0, 1] bcast_S1x128_S40000x128_0_1 b))
      (broadcastInDim S40000x128 ![] bcast_S_S40000x128 (constant S_ .f32 0x00000000#32))
      = Cert.Gine.upd x a W b := by
  funext i
  have hz : broadcastInDim S40000x128 ![] bcast_S_S40000x128 (constant (F := Ideal) S_ .f32 0x00000000#32) i = 0 := by
    rw [broadcastInDim_apply _ bcast_S_S40000x128 (constant (F := Ideal) S_ .f32 0x00000000#32) i (fun a => a.elim0) (fun a => a.elim0)]
    exact Ideal.ofBits_zero_f32
  have hb : broadcastInDim S40000x128 ![0, 1] bcast_S1x128_S40000x128_0_1 b i = b (ix2 0 (i 1)) :=
    broadcastInDim_apply _ bcast_S1x128_S40000x128_0_1 b i (ix2 0 (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  have hd : Host.dotGeneral dot_S40000x128_S128x128_S40000x128_1_0_0_1_n_n none (addf x a) W i
      = ∑ k : Fin 128, (x (ix2 (i 0) k) + a (ix2 (i 0) k)) * W (ix2 k (i 1)) := by
    simp only [Host.dotGeneral]
    rw [Ideal.dotGeneral_apply, ← Equiv.sum_comp (ValueIdx.contrEquiv1 dot_S40000x128_S128x128_S40000x128_1_0_0_1_n_n 128 rfl rfl).symm]
    refine Finset.sum_congr rfl fun k _ => ?_
    have hk := ValueIdx.contrEquiv1_symm_val dot_S40000x128_S128x128_S40000x128_1_0_0_1_n_n 128 rfl rfl k
    have el : dot_S40000x128_S128x128_S40000x128_1_0_0_1_n_n.lhsIdx i ((ValueIdx.contrEquiv1 dot_S40000x128_S128x128_S40000x128_1_0_0_1_n_n 128 rfl rfl).symm k) = ix2 (i 0) k :=
      funext fun a => Fin.ext (by
        match a with
        | ⟨0, _⟩ => exact Cert.ReferenceIdeal.Read.lhs_main_v17_0 _ _
        | ⟨1, _⟩ => exact (Cert.ReferenceIdeal.Read.lhs_main_v17_1 _ _).trans hk)
    have er : dot_S40000x128_S128x128_S40000x128_1_0_0_1_n_n.rhsIdx i ((ValueIdx.contrEquiv1 dot_S40000x128_S128x128_S40000x128_1_0_0_1_n_n 128 rfl rfl).symm k) = ix2 k (i 1) :=
      funext fun a => Fin.ext (by
        match a with
        | ⟨0, _⟩ => exact (Cert.ReferenceIdeal.Read.rhs_main_v17_0 _ _).trans hk
        | ⟨1, _⟩ => exact Cert.ReferenceIdeal.Read.rhs_main_v17_1 _ _)
    rw [el, er]
    rfl
  show max (Host.dotGeneral dot_S40000x128_S128x128_S40000x128_1_0_0_1_n_n none (addf x a) W i
        + broadcastInDim S40000x128 ![0, 1] bcast_S1x128_S40000x128_0_1 b i)
      (broadcastInDim S40000x128 ![] bcast_S_S40000x128 (constant (F := Ideal) S_ .f32 0x00000000#32) i)
    = max ((∑ k : Fin 128, (x (ix2 (i 0) k) + a (ix2 (i 0) k)) * W (ix2 k (i 1))) + b (ix2 0 (i 1))) 0
  rw [hz, hb, hd]

/-- One layer of the reference, over variables: its composed term is the specification's layer over the reference's own
    gather, scatter-sum and bias row. The message and the update are the two whole-array facts above. -/
theorem layer_eq (a1 : (⟨S2x640000, .i32⟩ : BufTy).Contents (Elt Ideal)) (x : FVec Ideal S40000x128 .f32)
    (e : FVec Ideal S640000x128 .f32) (W : FVec Ideal S128x128 .f32) (b : FVec Ideal S128 .f32) :
    maximumf (addf (Host.dotGeneral dot_S40000x128_S128x128_S40000x128_1_0_0_1_n_n none
          (addf x (Host.scatterAdd scatter_S40000x128_S640000x1_S640000x128_1_0_0_1
            (broadcastInDim S40000x128 ![] bcast_S_S40000x128 (constant S_ .f32 0x00000000#32)) (dstIdx a1)
            (maximumf (addf (Host.gather gather_S40000x128_S640000x1_S640000x128_1_0_n_n_0_1_1128 x (srcIdx a1)) e)
              (broadcastInDim S640000x128 ![] bcast_S_S640000x128 (constant S_ .f32 0x00000000#32))))) W)
        (broadcastInDim S40000x128 ![0, 1] bcast_S1x128_S40000x128_0_1 (broadcastInDim S1x128 ![1] bcast_S128_S1x128_1 b)))
      (broadcastInDim S40000x128 ![] bcast_S_S40000x128 (constant S_ .f32 0x00000000#32))
      = Cert.Gine.layer (gath a1) (scat a1) x e W (bias b) := by
  unfold Cert.Gine.layer gath scat bias
  rw [msg_eq, upd_eq]

/-- The reference's result is two layers of the specification over its own gather, scatter-sum and bias row. -/
theorem res_eq (m : (ℓ : Loc nD τ sig) → Buf (Elt Ideal) ℓ) (c : Dev nD) :
    Cert.ReferenceIdeal.Value.res_main_v39 (F := Ideal) m c
      = Cert.Gine.layer (gath (m ((c.tc : Thread nD τ).loc main_arg1))) (scat (m ((c.tc : Thread nD τ).loc main_arg1)))
          (Cert.Gine.layer (gath (m ((c.tc : Thread nD τ).loc main_arg1))) (scat (m ((c.tc : Thread nD τ).loc main_arg1)))
            (m ((c.tc : Thread nD τ).loc main_arg0)) (m ((c.tc : Thread nD τ).loc main_arg2)) (m ((c.tc : Thread nD τ).loc main_arg3))
            (bias (m ((c.tc : Thread nD τ).loc main_arg4))))
          (m ((c.tc : Thread nD τ).loc main_arg2)) (m ((c.tc : Thread nD τ).loc main_arg5)) (bias (m ((c.tc : Thread nD τ).loc main_arg6))) := by
  unfold Cert.ReferenceIdeal.Value.res_main_v39
  exact (layer_eq _ _ _ _ _).trans
    (congrArg (fun x => Cert.Gine.layer (gath (m ((c.tc : Thread nD τ).loc main_arg1))) (scat (m ((c.tc : Thread nD τ).loc main_arg1))) x
        (m ((c.tc : Thread nD τ).loc main_arg2)) (m ((c.tc : Thread nD τ).loc main_arg5)) (bias (m ((c.tc : Thread nD τ).loc main_arg6))))
      (layer_eq _ _ _ _ _))

end Cert.ReferenceIdeal.RefValue

end
-- ==== Proof.Bridge.lean ====
/-
  The two programs' host operations are the same whole-array functions.

  The gather along the edges and the scatter-sum into the nodes are printed once per program, over records and side
  conditions of the program's own; the records hold the same dimension numbers, so the functions are equal by
  unfolding. The bias row differs in spelling only: the kernel's program reshapes the 128 biases to one row, the
  reference broadcasts them along a new leading axis; both rows hold bias `c` at column `c`.
-/
import proofs.«164732_j1073741824404_1_alg».proof.Proof.KernelValue
import proofs.«164732_j1073741824404_1_alg».proof.Proof.RefValue

noncomputable section

namespace Cert.Bridge

open Idealize.ShloMosaic Idealize.ShloMosaic.TcCoe Idealize.SL.Sem

/-- The gathers agree. -/
theorem gath_eq (a1 : (⟨Cert.KernelIdeal.S2x640000, .i32⟩ : BufTy).Contents (Elt Ideal)) :
    Cert.KernelIdeal.KValue.gath a1 = Cert.ReferenceIdeal.RefValue.gath a1 := rfl

/-- The scatter-sums agree. -/
theorem scat_eq (a1 : (⟨Cert.KernelIdeal.S2x640000, .i32⟩ : BufTy).Contents (Elt Ideal)) :
    Cert.KernelIdeal.KValue.scat a1 = Cert.ReferenceIdeal.RefValue.scat a1 := rfl

/-- The column of an index of the bias row, as an index of the bias vector. -/
abbrev col (i : Cert.KernelIdeal.S1x128.Idx) : Cert.KernelIdeal.S128.Idx := fun a => match a with
  | ⟨0, _⟩ => ⟨(i 1).val, (i 1).isLt⟩

/-- The bias rows agree: column `c` of either holds bias `c`. -/
theorem bias_eq (b : FVec Ideal Cert.KernelIdeal.S128 .f32) :
    Cert.KernelIdeal.KValue.bias b = Cert.ReferenceIdeal.RefValue.bias b := by
  funext i
  refine (shapeCast_apply b Cert.KernelIdeal.Gen.shapeCasts_S128_S1x128 i (col i) ?_).trans
    (broadcastInDim_apply _ Cert.ReferenceIdeal.Gen.bcast_S128_S1x128_1 b i (col i) (fun a => match a with
      | ⟨0, _⟩ => by show (i 1).val = if (128 : Nat) = 1 then 0 else (i 1).val; rw [if_neg (by decide)])).symm
  rewrite [Shape.rowMajor_val_two, Shape.rowMajor_val_one]
  have h0 : (i 0).val < 1 := (i 0).isLt
  show (i 1).val = (i 0).val * 128 + (i 1).val
  omega

end Cert.Bridge

end
-- ==== Proof.lean ====
/-
  Two stacked graph-convolution layers, as a Pallas program against its jnp reference, over the extended reals.

  Each layer gathers the node rows along the edges, adds the edge features and clamps at zero (the message), sums the
  messages arriving at each node, and updates every node by `max ((x + agg) · W + b) 0`. The kernel's program computes
  the message in one tiled region (80 blocks of 8000 edges) and the update in another (8 blocks of 5000 nodes, the
  weight matrix and the bias row whole), the gather and the scatter-sum by the same host operations as the reference;
  the reference does everything with host operations. Blocking changes neither a pointwise operation nor a row's
  contraction, a matrix product into a zero accumulator is the plain sum, so index by index the two results are the
  same function of the arguments: no law beyond that is needed, and the precondition is never opened.

  The frames of the two kernel programs are the generated ones; the reference's frame is its generated run with the
  result dropped. The kernel program's result is read off the boundary contents of its run (Proof/FrameRun.lean,
  Proof/KernelValue.lean over the four regions' values), the reference's off its composed term (Proof/RefValue.lean),
  both as two layers of Proof/Spec.lean over gather and scatter-sum functions that Proof/Bridge.lean identifies.
-/
import proofs.«164732_j1073741824404_1_alg».proof.Defs
import proofs.«164732_j1073741824404_1_alg».proof.Proof.Gen.Kernel
import proofs.«164732_j1073741824404_1_alg».proof.Proof.Gen.Kernel.Frame
import proofs.«164732_j1073741824404_1_alg».proof.Proof.Gen.KernelIdeal
import proofs.«164732_j1073741824404_1_alg».proof.Proof.Gen.KernelIdeal.Frame
import proofs.«164732_j1073741824404_1_alg».proof.Proof.Gen.ReferenceIdeal
import proofs.«164732_j1073741824404_1_alg».proof.Proof.Gen.ReferenceIdeal.Run
import proofs.«164732_j1073741824404_1_alg».proof.Proof.Gen.Pre_finite_inputs
import proofs.«164732_j1073741824404_1_alg».proof.Proof.FrameRun
import proofs.«164732_j1073741824404_1_alg».proof.Proof.KernelValue
import proofs.«164732_j1073741824404_1_alg».proof.Proof.RefValue
import proofs.«164732_j1073741824404_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both results are the second layer over the first, of arguments that agree. -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v29),
    Cert.KernelIdeal.GenRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.RefValue.res_eq, h0, h1, h2, h3, h4, h5, h6]
  refine Eq.trans ?_ (Cert.KernelIdeal.KValue.result_eq m ρ c).symm
  rw [Cert.Bridge.gath_eq, Cert.Bridge.scat_eq, Cert.Bridge.bias_eq, Cert.Bridge.bias_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
